-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : FVec F S256x256 .f32) (main_arg6 : FVec F S256 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 50
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x256.size a ≤ S50000x256.size a
  hwx0_8 : ∀ i : grid0.Coords, EltTy.bits .f32 = 32 ∨ (Rect.block (s := S50000x256) S5000x256.size (cc0_transform_8 i) (hinb0_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S5000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v41 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelReads.lean ====
/-
  The kernel's ten grid points and the arrays they read and write, for any float instance.

  Point `t` of the grid is handed rows `5000·t … 5000·t + 4999` of the aggregate `[50000, 128]` and of the degree
  column `[50000, 1]`, and the whole of each weight and bias row; it writes back rows `5000·t … 5000·t + 4999` of the
  result `[50000, 256]`. This module says so index by index, and draws the consequence: if entry `(p, q)` of what the
  body stores at point `t` is entry `(5000·t + p, q)` of some array `G`, for every point and entry, then the result
  array after the run is `G`, because the ten row blocks cover all 50000 rows (row `r` is in the block of point
  `r / 5000`). Nothing here looks inside the arithmetic, so it holds whatever the float operations are.
-/
import proofs.«126388_j11940009083129_1_alg».proof.Proof.Gen.KernelIdeal.Value
import Idealize.ShloMosaic.Lib.Pipeline.Value
import Idealize.ShloMosaic.Lib.ValueIdx

noncomputable section

namespace Cert.KernelIdeal.Reads

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The arrays the region finds, each by its literal type -/

/-- The aggregate `[50000, 128]` when the region is entered. -/
def aggArr (c : Dev nD) : FVec F S50000x128 .f32 := V m c main_v22
/-- The inverse-root-degree column `[50000, 1]`. -/
def degArr (c : Dev nD) : FVec F S50000x1 .f32 := V m c main_v24
/-- The first weight `[128, 256]`. -/
def wcArr (c : Dev nD) : FVec F S128x256 .f32 := V m c main_arg1
/-- The first bias as a row `[1, 256]`. -/
def bcArr (c : Dev nD) : FVec F S1x256 .f32 := V m c main_v25
/-- The second weight `[256, 256]`. -/
def w1Arr (c : Dev nD) : FVec F S256x256 .f32 := V m c main_arg3
/-- The second bias as a row. -/
def b1Arr (c : Dev nD) : FVec F S1x256 .f32 := V m c main_v26
/-- The third weight `[256, 256]`. -/
def w2Arr (c : Dev nD) : FVec F S256x256 .f32 := V m c main_arg5
/-- The third bias as a row. -/
def b2Arr (c : Dev nD) : FVec F S1x256 .f32 := V m c main_v27

/-! ## Where each window's block sits, decided once over the ten points -/

theorem hz : (![0, 0] : Fin 2 → Nat) = fun _ => 0 := funext fun a => by fin_cases a <;> rfl

/-- The two row-blocked inputs and the output sit at block row `t`; every other window is its whole array. -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Ten grid points. -/
theorem t_lt (t : Fin cfg0.N) : t.val < 10 := lt_of_lt_of_eq t.isLt N_0

/-! ## Each window's block at point `t`, read off its array -/

/-- Row `p` of the aggregate's block at point `t` is row `5000·t + p` of the aggregate. -/
theorem agg_block (c : Dev nD) (t : Fin cfg0.N) (p : Fin 5000) (k : Fin 128) (r : Fin 50000) (hr : r.val = t.val * 5000 + p.val) :
    iblk m c 0 t (ix2 p k) = aggArr m c (ix2 r k) := by
  show V m c main_v22 (((cfg0.win 0).blk t).view.emb (ix2 p k)) = V m c main_v22 (ix2 r k)
  refine congrArg (V m c main_v22) ?_
  have e0 := (idx_facts t).2.2.1
  have e1 := (idx_facts t).2.2.2.1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry `p` of the degree column's block at point `t` is entry `5000·t + p` of the column. -/
theorem deg_block (c : Dev nD) (t : Fin cfg0.N) (p : Fin 5000) (r : Fin 50000) (hr : r.val = t.val * 5000 + p.val) :
    iblk m c 1 t (ix2 p (0 : Fin 1)) = degArr m c (ix2 r (0 : Fin 1)) := by
  show V m c main_v24 (((cfg0.win 1).blk t).view.emb (ix2 p (0 : Fin 1))) = V m c main_v24 (ix2 r (0 : Fin 1))
  refine congrArg (V m c main_v24) ?_
  have e0 := (idx_facts t).2.2.2.2.1
  have e1 := (idx_facts t).2.2.2.2.2.1
  funext a; apply Fin.ext
  match a with
  | ⟨0, _⟩ => show win0_1.index t (0 : Fin 2) * 5000 + 1 * p.val = r.val; omega
  | ⟨1, _⟩ => show win0_1.index t (1 : Fin 2) * 1 + 1 * 0 = 0; omega

/-- A weight's or a bias row's block is the whole array, at every point. -/
theorem wc_block (c : Dev nD) (t : Fin cfg0.N) (y : S128x256.Idx) : iblk m c 2 t y = wcArr m c y := by
  show V m c main_arg1 (((cfg0.win 2).blk t).view.emb y) = V m c main_arg1 y
  refine congrArg (V m c main_arg1) ?_
  have e0 := (idx_facts t).2.2.2.2.2.2.1
  have e1 := (idx_facts t).2.2.2.2.2.2.2.1
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem bc_block (c : Dev nD) (t : Fin cfg0.N) (y : S1x256.Idx) : iblk m c 3 t y = bcArr m c y := by
  show V m c main_v25 (((cfg0.win 3).blk t).view.emb y) = V m c main_v25 y
  refine congrArg (V m c main_v25) ?_
  have e0 := (idx_facts t).2.2.2.2.2.2.2.2.1
  have e1 := (idx_facts t).2.2.2.2.2.2.2.2.2.1
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem w1_block (c : Dev nD) (t : Fin cfg0.N) (y : S256x256.Idx) : iblk m c 4 t y = w1Arr m c y := by
  show V m c main_arg3 (((cfg0.win 4).blk t).view.emb y) = V m c main_arg3 y
  refine congrArg (V m c main_arg3) ?_
  have e0 := (idx_facts t).2.2.2.2.2.2.2.2.2.2.1
  have e1 := (idx_facts t).2.2.2.2.2.2.2.2.2.2.2.1
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem b1_block (c : Dev nD) (t : Fin cfg0.N) (y : S1x256.Idx) : iblk m c 5 t y = b1Arr m c y := by
  show V m c main_v26 (((cfg0.win 5).blk t).view.emb y) = V m c main_v26 y
  refine congrArg (V m c main_v26) ?_
  have e0 := (idx_facts t).2.2.2.2.2.2.2.2.2.2.2.2.1
  have e1 := (idx_facts t).2.2.2.2.2.2.2.2.2.2.2.2.2.1
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem w2_block (c : Dev nD) (t : Fin cfg0.N) (y : S256x256.Idx) : iblk m c 6 t y = w2Arr m c y := by
  show V m c main_arg5 (((cfg0.win 6).blk t).view.emb y) = V m c main_arg5 y
  refine congrArg (V m c main_arg5) ?_
  have e0 := (idx_facts t).2.2.2.2.2.2.2.2.2.2.2.2.2.2.1
  have e1 := (idx_facts t).2.2.2.2.2.2.2.2.2.2.2.2.2.2.2.1
  funext a; apply Fin.ext
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem b2_block (c : Dev nD) (t : Fin cfg0.N) (y : S1x256.Idx) : iblk m c 7 t y = b2Arr m c y := by
  show V m c main_v27 (((cfg0.win 7).blk t).view.emb y) = V m c main_v27 y
  refine congrArg (V m c main_v27) ?_
  have e0 := (idx_facts t).2.2.2.2.2.2.2.2.2.2.2.2.2.2.2.2.1
  have e1 := (idx_facts t).2.2.2.2.2.2.2.2.2.2.2.2.2.2.2.2.2
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega

/-! ## What point `t` writes back, the cover, and the array after the run -/

/-- Entry `y` of the output block of point `t` sits at row `5000·t + y₀`, column `y₁` of the result. -/
theorem out_emb (t : Fin cfg0.N) (y : S5000x256.Idx) (r : Fin 50000) (q : Fin 256) (hr : r.val = t.val * 5000 + (y 0).val) (hq : q.val = (y 1).val) :
    ((cfg0.win 8).blk t).view.emb y = ix2 r q := by
  have e0 := (idx_facts t).1
  have e1 := (idx_facts t).2.1
  funext a; apply Fin.ext
  match a with
  | ⟨0, _⟩ => show win0_8.index t (0 : Fin 2) * 5000 + 1 * (y 0).val = r.val; omega
  | ⟨1, _⟩ => show win0_8.index t (1 : Fin 2) * 256 + 1 * (y 1).val = q.val; omega

/-- WHAT POINT `t` WRITES BACK is block `t` of `G`, for any array `G` whose rows `5000·t + p` are what the body stores
    in its rows `p`. -/
theorem flushed_of_entries (c : Dev nD) (t : Fin cfg0.N) (G : FVec F S50000x256 .f32)
    (h : ∀ (p : Fin 5000) (q : Fin 256) (r : Fin 50000), r.val = t.val * 5000 + p.val →
      k0_pay1 (iblk m c 0 t) (iblk m c 1 t) (iblk m c 2 t) (iblk m c 3 t) (iblk m c 4 t) (iblk m c 5 t) (iblk m c 6 t) (iblk m c 7 t) (ix2 p q) = G (ix2 r q)) :
    (dats m 0 c).flushed 8 t = ((cfg0.win 8).blk t).view.read (Elt F) G := by
  rw [Cert.KernelIdeal.Value.flushed8]
  unfold out0_8
  rw [View.canon_unit_zero hz]
  simp only [View.ld_unit_zero (S := S5000x128) hz, View.ld_unit_zero (S := S5000x1) hz, View.ld_unit_zero (S := S128x256) hz,
    View.ld_unit_zero (S := S1x256) hz, View.ld_unit_zero (S := S256x256) hz]
  funext y
  have ht := t_lt t
  have hy0 : (y 0).val < 5000 := (y 0).isLt
  show k0_pay1 (iblk m c 0 t) (iblk m c 1 t) (iblk m c 2 t) (iblk m c 3 t) (iblk m c 4 t) (iblk m c 5 t) (iblk m c 6 t) (iblk m c 7 t) y = G (((cfg0.win 8).blk t).view.emb y)
  rw [out_emb t y ⟨t.val * 5000 + (y 0).val, by omega⟩ ⟨(y 1).val, (y 1).isLt⟩ rfl rfl]
  refine Eq.trans ?_ (h ⟨(y 0).val, (y 0).isLt⟩ ⟨(y 1).val, (y 1).isLt⟩ ⟨t.val * 5000 + (y 0).val, by omega⟩ rfl)
  exact congrArg (k0_pay1 (iblk m c 0 t) (iblk m c 1 t) (iblk m c 2 t) (iblk m c 3 t) (iblk m c 4 t) (iblk m c 5 t) (iblk m c 6 t) (iblk m c 7 t)) (eq_ix2 y)

/-- An index is in point `t`'s block iff each coordinate is in the block's range on its axis. -/
theorem mem_blk (t : Fin cfg0.N) (i : S50000x256.Idx) :
    i ∈ ((cfg0.win 8).blk t).view.set ↔ ∀ a : Fin 2, win0_8.index t a * S5000x256.size a ≤ (i a).val ∧ (i a).val < win0_8.index t a * S5000x256.size a + S5000x256.size a := by
  show i ∈ ((View.whole main_v28).slice (win0_8.rect t)).set ↔ _
  rw [View.set_slice_whole, Rect.mem_set_unit]
  exact Iff.rfl

/-- Row `r` of the result lies in the block of point `r / 5000`. -/
theorem cover (i : S50000x256.Idx) : ∃ t : Fin cfg0.N, (cfg0.win 8).flush t = true ∧ i ∈ ((cfg0.win 8).blk t).view.set := by
  have hi0 : (i 0).val < 50000 := (i 0).isLt
  have hi1 : (i 1).val < 256 := (i 1).isLt
  have hN : cfg0.N = 10 := N_0
  obtain ⟨t, htv⟩ : ∃ t : Fin cfg0.N, t.val = (i 0).val / 5000 := ⟨⟨(i 0).val / 5000, by rw [hN]; omega⟩, rfl⟩
  have e0 := (idx_facts t).1
  have e1 := (idx_facts t).2.1
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 256 ≤ (i 1).val ∧ (i 1).val < win0_8.index t (1 : Fin 2) * 256 + 256; omega

/-- THE RESULT ARRAY after the run is `G`, for any `G` that every point's stored rows are rows of. -/
theorem final_of_entries (c : Dev nD) (G : FVec F S50000x256 .f32)
    (h : ∀ (t : Fin cfg0.N) (p : Fin 5000) (q : Fin 256) (r : Fin 50000), r.val = t.val * 5000 + p.val →
      k0_pay1 (iblk m c 0 t) (iblk m c 1 t) (iblk m c 2 t) (iblk m c 3 t) (iblk m c 4 t) (iblk m c 5 t) (iblk m c 6 t) (iblk m c 7 t) (ix2 p q) = G (ix2 r q)) :
    (dats m 0 c).arrAt 8 cfg0.N = G :=
  (dats m 0 c).arrAt_eq_of_cover 8 G (fun t _ => flushed_of_entries m c t G (h t)) cover

/-- The kernel's run with the result array named: `G c` on each core, the arguments unchanged. -/
theorem run_of_entries (G : Dev nD → FVec F S50000x256 .f32)
    (h : ∀ (c : Dev nD) (t : Fin cfg0.N) (p : Fin 5000) (q : Fin 256) (r : Fin 50000), r.val = t.val * 5000 + p.val →
      k0_pay1 (iblk m c 0 t) (iblk m c 1 t) (iblk m c 2 t) (iblk m c 3 t) (iblk m c 4 t) (iblk m c 5 t) (iblk m c 6 t) (iblk m c 7 t) (ix2 p q) = G c (ix2 r q)) :
    θ_run defs (onTc (τ := τ) (main (F := F))) ⟨m, fun _ => 0, ρ⟩ fun r => ∀ c : Dev nD,
      r.2.mem ((c : Thread nD τ).loc main_v28) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h' c => ⟨(h' c).1.trans (final_of_entries m c (G c) (h c)), (h' c).2⟩)
    (Cert.KernelIdeal.Value.run_blocks m ρ)

end Cert.KernelIdeal.Reads

end
-- ==== Proof.KernelHost.lean ====
/-
  The arrays the kernel's region finds, as functions of the program's arguments.

  Before the region the kernel's program runs the same message-passing prelude as the reference, operation for
  operation: out- and in-degrees by scatter-adding ones, clamped at one; the features scaled by the inverse root
  out-degree; the scaled rows gathered at the sources and scatter-added at the destinations; the inverse root
  in-degree as a column. So the aggregate and the degree column the region finds are the reference's stages `%22` and
  `%24` of the same arguments. The weights are the arguments themselves and each bias row is its bias re-laid as
  `[1, 256]`. Stated for any float instance: the operations are only matched, never computed.
-/
import proofs.«126388_j11940009083129_1_alg».proof.Proof.KernelReads
import proofs.«126388_j11940009083129_1_alg».proof.Proof.Gen.ReferenceIdeal.Read
import Idealize.ShloMosaic.Lib.StableHlo.Run
import Idealize.ShloMosaic.Lib.ValueLayout

noncomputable section

namespace Cert.KernelIdeal.Host

open Cert.KernelIdeal Cert.KernelIdeal.Gen Cert.KernelIdeal.Reads
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The aggregate the region finds is the reference's aggregate stage of the features and the two index arrays. -/
theorem aggArr_eq (c : Dev nD) :
    aggArr m c = Cert.ReferenceIdeal.Read.val_main_v22 (F := F) (m ((c : Thread nD τ).loc main_arg0)) (m ((c : Thread nD τ).loc main_arg7)) (m ((c : Thread nD τ).loc main_arg8)) := by
  unfold aggArr
  dsimp only [V]
  simp only [hostOps0, hostOps0_1, hostOps0_2, hostOps0_3, hostOps0_4, List.flatten_cons, List.flatten_nil, List.append_nil, List.cons_append, List.nil_append]
  after_results_simp
  rfl

/-- The degree column the region finds is the reference's column stage of the destination indices. -/
theorem degArr_eq (c : Dev nD) :
    degArr m c = Cert.ReferenceIdeal.Read.val_main_v24 (F := F) (m ((c : Thread nD τ).loc main_arg8)) := by
  unfold degArr
  dsimp only [V]
  simp only [hostOps0, hostOps0_1, hostOps0_2, hostOps0_3, hostOps0_4, List.flatten_cons, List.flatten_nil, List.append_nil, List.cons_append, List.nil_append]
  after_results_simp
  rfl

/-- No host operation writes a weight: the region finds each as launched. -/
theorem wcArr_eq (c : Dev nD) : wcArr m c = (m ((c : Thread nD τ).loc main_arg1)) := V_main_arg1 m c
theorem w1Arr_eq (c : Dev nD) : w1Arr m c = (m ((c : Thread nD τ).loc main_arg3)) := V_main_arg3 m c
theorem w2Arr_eq (c : Dev nD) : w2Arr m c = (m ((c : Thread nD τ).loc main_arg5)) := V_main_arg5 m c

/-! Each bias row, at column `j`, is its bias at `j`. -/

theorem bcArr_row (c : Dev nD) (j : Fin 256) : bcArr m c (ix2 (0 : Fin 1) j) = ((m ((c : Thread nD τ).loc main_arg2)) : FVec F S256 .f32) (ix1 j) := by
  have e : (V m c main_v25 : FVec F S1x256 .f32) = shapeCast S1x256 ((m ((c : Thread nD τ).loc main_arg2)) : FVec F S256 .f32) shapeCasts_S256_S1x256 := by
    dsimp only [V]
    simp only [hostOps0, hostOps0_1, hostOps0_2, hostOps0_3, hostOps0_4, List.flatten_cons, List.flatten_nil, List.append_nil, List.cons_append, List.nil_append]
    after_results_simp
    rfl
  exact (congrFun e (ix2 (0 : Fin 1) j)).trans (shapeCast_a_1a_apply _ _ (0 : Fin 1) j)

theorem b1Arr_row (c : Dev nD) (j : Fin 256) : b1Arr m c (ix2 (0 : Fin 1) j) = ((m ((c : Thread nD τ).loc main_arg4)) : FVec F S256 .f32) (ix1 j) := by
  have e : (V m c main_v26 : FVec F S1x256 .f32) = shapeCast S1x256 ((m ((c : Thread nD τ).loc main_arg4)) : FVec F S256 .f32) shapeCasts_S256_S1x256 := by
    dsimp only [V]
    simp only [hostOps0, hostOps0_1, hostOps0_2, hostOps0_3, hostOps0_4, List.flatten_cons, List.flatten_nil, List.append_nil, List.cons_append, List.nil_append]
    after_results_simp
    rfl
  exact (congrFun e (ix2 (0 : Fin 1) j)).trans (shapeCast_a_1a_apply _ _ (0 : Fin 1) j)

theorem b2Arr_row (c : Dev nD) (j : Fin 256) : b2Arr m c (ix2 (0 : Fin 1) j) = ((m ((c : Thread nD τ).loc main_arg6)) : FVec F S256 .f32) (ix1 j) := by
  have e : (V m c main_v27 : FVec F S1x256 .f32) = shapeCast S1x256 ((m ((c : Thread nD τ).loc main_arg6)) : FVec F S256 .f32) shapeCasts_S256_S1x256 := by
    dsimp only [V]
    simp only [hostOps0, hostOps0_1, hostOps0_2, hostOps0_3, hostOps0_4, List.flatten_cons, List.flatten_nil, List.append_nil, List.cons_append, List.nil_append]
    after_results_simp
    rfl
  exact (congrFun e (ix2 (0 : Fin 1) j)).trans (shapeCast_a_1a_apply _ _ (0 : Fin 1) j)

end Cert.KernelIdeal.Host

end
-- ==== Proof.Spec.lean ====
/-
  The arithmetic both programs compute after message passing, written once over the extended reals.

  A node's aggregated feature row `a` (128 entries) is scaled by the node's inverse root in-degree `d`, then
  passed through three dense layers, each followed by the activation SiLU, `y ↦ y · σ(y)` with
  `σ(y) = 1 / (1 + e^(-y))`:

      x_k   = a_k · d
      h⁰_j  = silu (∑ₖ x_k  · Wc k j + bc j)        (128 → 256)
      h¹_j  = silu (∑ₖ h⁰_k · W1 k j + b1 j)        (256 → 256)
      h²_j  = silu (∑ₖ h¹_k · W2 k j + b2 j)        (256 → 256)

  Every output row depends on one row of the aggregate and one entry of the degree column only, so a program that
  computes the rows in blocks of 5000 and one that computes all 50000 at once produce the same array: `G` below,
  row `r` of which is `nodeRow` of row `r` of the aggregate. No law of the extended reals beyond reading both sides as
  this one expression is used; in particular nothing is distributed over a sum, so no entry need be finite.
-/
import Idealize.ShloMosaic.PureOps.Ideal
import Idealize.ShloMosaic.Lib.ValueIdx

noncomputable section

namespace Cert.GraphConv

open Idealize.ShloMosaic Idealize.ShloMosaic.ValueIdx

/-- The float pattern of `1.0` denotes the real number one. -/
theorem one_f32 : Ideal.ofBits .f32 0x3F800000#32 = 1 := by
  simp [Ideal.ofBits, Ideal.ieee, -EReal.coe_mul]; norm_num

/-- SiLU on the extended reals: `y · σ(y)`. -/
def silu (y : EReal) : EReal := y * Ideal.logistic y

/-- The logistic function spelt out as jax expands it, `1 / (1 + e^(-y))`, is the logistic function. -/
theorem silu_expanded (y : EReal) : y * Ideal.div 1 (1 + Ideal.exp (-y)) = silu y := rfl

/-- One dense layer on one row: entry `j` is SiLU of the row's product with column `j` of the weights plus the bias. -/
def layer {K N : ℕ} (x : Fin K → EReal) (W : Fin K → Fin N → EReal) (b : Fin N → EReal) (j : Fin N) : EReal :=
  silu (∑ k, x k * W k j + b j)

/-- One node's output row from its aggregated row `a` and its inverse root in-degree `d`. -/
def nodeRow (a : Fin 128 → EReal) (d : EReal)
    (Wc : Fin 128 → Fin 256 → EReal) (bc : Fin 256 → EReal)
    (W1 : Fin 256 → Fin 256 → EReal) (b1 : Fin 256 → EReal)
    (W2 : Fin 256 → Fin 256 → EReal) (b2 : Fin 256 → EReal) : Fin 256 → EReal :=
  layer (layer (layer (fun k => a k * d) Wc bc) W1 b1) W2 b2

/-- A rank-two array as a function of its row and its column. -/
abbrev mat {R C : ℕ} (X : (⟨2, ![R, C]⟩ : Shape).Idx → EReal) : Fin R → Fin C → EReal := fun r c => X (ix2 r c)

/-- A rank-one array as a function of its position. -/
abbrev vec {N : ℕ} (x : (⟨1, ![N]⟩ : Shape).Idx → EReal) : Fin N → EReal := fun j => x (ix1 j)

/-- Entry `(r, j)` of the result: row `r` of the aggregate `A`, entry `r` of the degree column `D`, through the layers. -/
def Gat (A : (⟨2, ![50000, 128]⟩ : Shape).Idx → EReal) (D : (⟨2, ![50000, 1]⟩ : Shape).Idx → EReal)
    (Wc : Fin 128 → Fin 256 → EReal) (bc : Fin 256 → EReal)
    (W1 : Fin 256 → Fin 256 → EReal) (b1 : Fin 256 → EReal)
    (W2 : Fin 256 → Fin 256 → EReal) (b2 : Fin 256 → EReal) (r : Fin 50000) (j : Fin 256) : EReal :=
  nodeRow (fun k => A (ix2 r k)) (D (ix2 r (0 : Fin 1))) Wc bc W1 b1 W2 b2 j

/-- The whole result array `[50000, 256]` as one function of the aggregate, the degree column, the weights and biases. -/
def G (A : (⟨2, ![50000, 128]⟩ : Shape).Idx → EReal) (D : (⟨2, ![50000, 1]⟩ : Shape).Idx → EReal)
    (Wc : Fin 128 → Fin 256 → EReal) (bc : Fin 256 → EReal)
    (W1 : Fin 256 → Fin 256 → EReal) (b1 : Fin 256 → EReal)
    (W2 : Fin 256 → Fin 256 → EReal) (b2 : Fin 256 → EReal) : (⟨2, ![50000, 256]⟩ : Shape).Idx → EReal :=
  fun i => Gat A D Wc bc W1 b1 W2 b2 (i 0) (i 1)

theorem G_ix2 (A : (⟨2, ![50000, 128]⟩ : Shape).Idx → EReal) (D : (⟨2, ![50000, 1]⟩ : Shape).Idx → EReal)
    (Wc : Fin 128 → Fin 256 → EReal) (bc : Fin 256 → EReal)
    (W1 : Fin 256 → Fin 256 → EReal) (b1 : Fin 256 → EReal)
    (W2 : Fin 256 → Fin 256 → EReal) (b2 : Fin 256 → EReal) (r : Fin 50000) (j : Fin 256) :
    G A D Wc bc W1 b1 W2 b2 (ix2 r j) = Gat A D Wc bc W1 b1 W2 b2 r j := rfl

end Cert.GraphConv

end
-- ==== Proof.LibKeepdimsColumn.lean ====
/-
  A column kept by a row reduction (`keepdims=True`): a vector `[a]` re-laid as the column `[a, 1]`, and that column
  spread over `b` columns. Each is read at an index written by coordinates: the column at `(i, u)` is the vector at
  `i` (the two have the same row-major position, `i · 1 + 0 = i`), and the spread matrix at `(i, j)` is the column at
  `(i, 0)` (a unit axis of the operand is read at `0`, the other axis at the result's own coordinate). Together with
  the library's row forms (`[a] → [1, a]`, `[1, b] → [a, b]`, a matrix transposed) they read `s_i + s_j` off the two
  spreads of one vector of row sums.
-/
import Idealize.ShloMosaic.Lib.ValueLayout

namespace Cert.KeepdimsColumn

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.KeepdimsColumn
-- ==== Proof.KernelPayload.lean ====
/-
  What the kernel body stores, read entry by entry.

  At one grid point the body holds a `[5000, 128]` block of the aggregate, the matching `[5000, 1]` block of the
  inverse-root-degree column, and the whole weights and bias rows. It scales the block row by row, and three
  times over multiplies by a weight, adds the bias row and applies SiLU. Every operation is either entrywise, a
  spread of a row or a column, or a matrix product whose entry `(p, q)` is the sum over the shared axis of row `p`
  against column `q`; so entry `(p, q)` of what is stored is `nodeRow` of row `p` of the aggregate block and entry `p`
  of the degree block: the specification's row function, on the block's row.
-/
import proofs.«126388_j11940009083129_1_alg».proof.Proof.Gen.KernelIdeal.Skeleton
import proofs.«126388_j11940009083129_1_alg».proof.Proof.Spec
import proofs.«126388_j11940009083129_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.GraphConv Idealize.ShloMosaic Idealize.ShloMosaic.TcCoe Idealize.ShloMosaic.ValueIdx

/-! ## The two matrix products at an entry -/

theorem lhsA_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhsA_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhsA_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhsA_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's product of a `[5000, 128]` block with a `[128, 256]` weight into the zero accumulator, read at
    `(p, q)`: row `p` of the block against column `q` of the weight, summed over the 128 shared positions. -/
theorem matmulA_apply (X : FVec Ideal S5000x128 .bf16) (W : FVec Ideal S128x256 .bf16) (p : Fin 5000) (q : Fin 256) :
    matmul dot_S5000x128_S128x256_S5000x256_1_0_0_1_n_n none X W (constant S5000x256 .f32 0x00000000#32) (ix2 p q)
      = ∑ k : Fin 128, X (ix2 p k) * W (ix2 k q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhsB_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhsB_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhsB_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The body's product of a `[5000, 256]` block with a `[256, 256]` weight into the zero accumulator, read at
    `(p, q)`: row `p` of the block against column `q` of the weight, summed over the 256 shared positions. -/
theorem matmulB_apply (X : FVec Ideal S5000x256 .bf16) (W : FVec Ideal S256x256 .bf16) (p : Fin 5000) (q : Fin 256) :
    matmul dot_S5000x256_S256x256_S5000x256_1_0_0_1_n_n none X W (constant S5000x256 .f32 0x00000000#32) (ix2 p q)
      = ∑ k : Fin 256, X (ix2 p k) * W (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## One layer of the body at an entry -/

/-- The first layer on a block of scaled aggregate rows: the block times the weight, plus the bias row spread over the 5000 rows, through SiLU — the body's
    operations, the roundings to bf16 around the product included (they change nothing over the extended reals). -/
def denseA (X : FVec Ideal S5000x128 .f32) (W : FVec Ideal S128x256 .f32) (b : FVec Ideal S1x256 .f32) : FVec Ideal S5000x256 .f32 :=
  mulf (addf (matmul dot_S5000x128_S128x256_S5000x256_1_0_0_1_n_n none (truncf .bf16 X bitsLt_bf16_f32) (truncf .bf16 W bitsLt_bf16_f32) (constant S5000x256 .f32 0x00000000#32))
        (broadcastTo S5000x256 (shapeCast S1x256 b shapeCasts_S1x256_S1x256) broadcasts_S1x256_S5000x256))
    (logistic (addf (matmul dot_S5000x128_S128x256_S5000x256_1_0_0_1_n_n none (truncf .bf16 X bitsLt_bf16_f32) (truncf .bf16 W bitsLt_bf16_f32) (constant S5000x256 .f32 0x00000000#32))
        (broadcastTo S5000x256 (shapeCast S1x256 b shapeCasts_S1x256_S1x256) broadcasts_S1x256_S5000x256)))

/-- Read at `(p, q)` it is the layer of row `p` of the block: entry `q`. -/
theorem denseA_apply (X : FVec Ideal S5000x128 .f32) (W : FVec Ideal S128x256 .f32) (b : FVec Ideal S1x256 .f32) (p : Fin 5000) (q : Fin 256) :
    denseA X W b (ix2 p q) = layer (fun k => X (ix2 p k)) (mat W) (fun j => b (ix2 (0 : Fin 1) j)) q := by
  have hsum : addf (matmul dot_S5000x128_S128x256_S5000x256_1_0_0_1_n_n none (truncf .bf16 X bitsLt_bf16_f32) (truncf .bf16 W bitsLt_bf16_f32) (constant S5000x256 .f32 0x00000000#32))
        (broadcastTo S5000x256 (shapeCast S1x256 b shapeCasts_S1x256_S1x256) broadcasts_S1x256_S5000x256) (ix2 p q)
      = ∑ k : Fin 128, X (ix2 p k) * W (ix2 k q) + b (ix2 (0 : Fin 1) q) := by
    rw [addf_apply, matmulA_apply, broadcastTo_1b_ab_apply, shapeCast_self]
    rfl
  unfold denseA
  rw [mulf_apply]
  show _ * Ideal.logistic _ = _
  rw [hsum]
  rfl

/-- A later layer on a block of activations: the block times the weight, plus the bias row spread over the 5000 rows, through SiLU — the body's
    operations, the roundings to bf16 around the product included (they change nothing over the extended reals). -/
def denseB (X : FVec Ideal S5000x256 .f32) (W : FVec Ideal S256x256 .f32) (b : FVec Ideal S1x256 .f32) : FVec Ideal S5000x256 .f32 :=
  mulf (addf (matmul dot_S5000x256_S256x256_S5000x256_1_0_0_1_n_n none (truncf .bf16 X bitsLt_bf16_f32) (truncf .bf16 W bitsLt_bf16_f32) (constant S5000x256 .f32 0x00000000#32))
        (broadcastTo S5000x256 (shapeCast S1x256 b shapeCasts_S1x256_S1x256) broadcasts_S1x256_S5000x256))
    (logistic (addf (matmul dot_S5000x256_S256x256_S5000x256_1_0_0_1_n_n none (truncf .bf16 X bitsLt_bf16_f32) (truncf .bf16 W bitsLt_bf16_f32) (constant S5000x256 .f32 0x00000000#32))
        (broadcastTo S5000x256 (shapeCast S1x256 b shapeCasts_S1x256_S1x256) broadcasts_S1x256_S5000x256)))

/-- Read at `(p, q)` it is the layer of row `p` of the block: entry `q`. -/
theorem denseB_apply (X : FVec Ideal S5000x256 .f32) (W : FVec Ideal S256x256 .f32) (b : FVec Ideal S1x256 .f32) (p : Fin 5000) (q : Fin 256) :
    denseB X W b (ix2 p q) = layer (fun k => X (ix2 p k)) (mat W) (fun j => b (ix2 (0 : Fin 1) j)) q := by
  have hsum : addf (matmul dot_S5000x256_S256x256_S5000x256_1_0_0_1_n_n none (truncf .bf16 X bitsLt_bf16_f32) (truncf .bf16 W bitsLt_bf16_f32) (constant S5000x256 .f32 0x00000000#32))
        (broadcastTo S5000x256 (shapeCast S1x256 b shapeCasts_S1x256_S1x256) broadcasts_S1x256_S5000x256) (ix2 p q)
      = ∑ k : Fin 256, X (ix2 p k) * W (ix2 k q) + b (ix2 (0 : Fin 1) q) := by
    rw [addf_apply, matmulB_apply, broadcastTo_1b_ab_apply, shapeCast_self]
    rfl
  unfold denseB
  rw [mulf_apply]
  show _ * Ideal.logistic _ = _
  rw [hsum]
  rfl

/-! ## The scaled block, and the whole stored value -/

/-- The aggregate block scaled by the degree block spread over the 128 columns. -/
def scaled (a : FVec Ideal S5000x128 .f32) (d : FVec Ideal S5000x1 .f32) : FVec Ideal S5000x128 .f32 :=
  mulf (shapeCast S5000x128 a shapeCasts_S5000x128_S5000x128)
    (broadcastTo S5000x128 (shapeCast S5000x1 d shapeCasts_S5000x1_S5000x1) broadcasts_S5000x1_S5000x128)

/-- Entry `(p, k)` of the scaled block: the aggregate there times row `p`'s degree factor. -/
theorem scaled_apply (a : FVec Ideal S5000x128 .f32) (d : FVec Ideal S5000x1 .f32) (p : Fin 5000) (k : Fin 128) :
    scaled a d (ix2 p k) = a (ix2 p k) * d (ix2 p (0 : Fin 1)) := by
  unfold scaled
  rw [mulf_apply, shapeCast_self, Cert.KeepdimsColumn.broadcastTo_a1_ab_apply, shapeCast_self]

/-- The stored value is the three layers applied to the scaled block: the body's own text, regrouped. -/
theorem pay_eq (v0 : FVec Ideal S5000x128 .f32) (v2 : FVec Ideal S5000x1 .f32) (v7 : FVec Ideal S128x256 .f32) (v10 : FVec Ideal S1x256 .f32)
    (v17 : FVec Ideal S256x256 .f32) (v20 : FVec Ideal S1x256 .f32) (v27 : FVec Ideal S256x256 .f32) (v30 : FVec Ideal S1x256 .f32) :
    k0_pay1 (F := Ideal) v0 v2 v7 v10 v17 v20 v27 v30 = denseB (denseB (denseA (scaled v0 v2) v7 v10) v17 v20) v27 v30 := rfl

/-- Entry `(p, q)` of the stored value is entry `q` of the node row built from row `p` of the two data blocks. -/
theorem pay_apply (v0 : FVec Ideal S5000x128 .f32) (v2 : FVec Ideal S5000x1 .f32) (v7 : FVec Ideal S128x256 .f32) (v10 : FVec Ideal S1x256 .f32)
    (v17 : FVec Ideal S256x256 .f32) (v20 : FVec Ideal S1x256 .f32) (v27 : FVec Ideal S256x256 .f32) (v30 : FVec Ideal S1x256 .f32)
    (p : Fin 5000) (q : Fin 256) :
    k0_pay1 (F := Ideal) v0 v2 v7 v10 v17 v20 v27 v30 (ix2 p q)
      = nodeRow (fun k => v0 (ix2 p k)) (v2 (ix2 p (0 : Fin 1))) (mat v7) (fun j => v10 (ix2 (0 : Fin 1) j))
          (mat v17) (fun j => v20 (ix2 (0 : Fin 1) j)) (mat v27) (fun j => v30 (ix2 (0 : Fin 1) j)) q := by
  rw [pay_eq, denseB_apply]
  unfold nodeRow
  congr 1
  funext k1
  rw [denseB_apply]
  congr 1
  funext k2
  rw [denseA_apply]
  congr 1
  funext k3
  exact scaled_apply v0 v2 p k3

/-- `nodeRow` of equal arguments. -/
theorem nodeRow_congr {a a' : Fin 128 → EReal} {d d' : EReal} {Wc Wc' : Fin 128 → Fin 256 → EReal} {bc bc' : Fin 256 → EReal}
    {W1 W1' : Fin 256 → Fin 256 → EReal} {b1 b1' : Fin 256 → EReal} {W2 W2' : Fin 256 → Fin 256 → EReal} {b2 b2' : Fin 256 → EReal}
    (ha : a = a') (hd : d = d') (hWc : Wc = Wc') (hbc : bc = bc') (hW1 : W1 = W1') (hb1 : b1 = b1') (hW2 : W2 = W2') (hb2 : b2 = b2') :
    nodeRow a d Wc bc W1 b1 W2 b2 = nodeRow a' d' Wc' bc' W1' b1' W2' b2' := by
  subst ha hd hWc hbc hW1 hb1 hW2 hb2; rfl

/-- If row `p` of the two data blocks is row `r` of the two data arrays, and the weight and bias blocks are the whole
    weights and bias rows, then entry `(p, q)` of what the body stores is entry `(r, q)` of `G` of the arrays. -/
theorem entry_of_reads
    (A : FVec Ideal S50000x128 .f32) (D : FVec Ideal S50000x1 .f32) (Wc : FVec Ideal S128x256 .f32) (Bc : FVec Ideal S1x256 .f32)
    (W1 : FVec Ideal S256x256 .f32) (B1 : FVec Ideal S1x256 .f32) (W2 : FVec Ideal S256x256 .f32) (B2 : FVec Ideal S1x256 .f32)
    (v0 : FVec Ideal S5000x128 .f32) (v2 : FVec Ideal S5000x1 .f32) (v7 : FVec Ideal S128x256 .f32) (v10 : FVec Ideal S1x256 .f32)
    (v17 : FVec Ideal S256x256 .f32) (v20 : FVec Ideal S1x256 .f32) (v27 : FVec Ideal S256x256 .f32) (v30 : FVec Ideal S1x256 .f32)
    (p : Fin 5000) (q : Fin 256) (r : Fin 50000)
    (h0 : ∀ k : Fin 128, v0 (ix2 p k) = A (ix2 r k)) (h2 : v2 (ix2 p (0 : Fin 1)) = D (ix2 r (0 : Fin 1)))
    (h7 : ∀ y, v7 y = Wc y) (h10 : ∀ y, v10 y = Bc y) (h17 : ∀ y, v17 y = W1 y) (h20 : ∀ y, v20 y = B1 y)
    (h27 : ∀ y, v27 y = W2 y) (h30 : ∀ y, v30 y = B2 y) :
    k0_pay1 (F := Ideal) v0 v2 v7 v10 v17 v20 v27 v30 (ix2 p q)
      = G A D (mat Wc) (fun j => Bc (ix2 (0 : Fin 1) j)) (mat W1) (fun j => B1 (ix2 (0 : Fin 1) j))
          (mat W2) (fun j => B2 (ix2 (0 : Fin 1) j)) (ix2 r q) := by
  refine (pay_apply v0 v2 v7 v10 v17 v20 v27 v30 p q).trans ?_
  refine Eq.trans ?_ (G_ix2 A D (mat Wc) (fun j => Bc (ix2 (0 : Fin 1) j)) (mat W1) (fun j => B1 (ix2 (0 : Fin 1) j))
    (mat W2) (fun j => B2 (ix2 (0 : Fin 1) j)) r q).symm
  unfold Gat
  refine congrFun (nodeRow_congr ?_ ?_ ?_ ?_ ?_ ?_ ?_ ?_) q
  · exact funext fun k => h0 k
  · exact h2
  · exact funext fun k => funext fun j => h7 (ix2 k j)
  · exact funext fun j => h10 (ix2 (0 : Fin 1) j)
  · exact funext fun k => funext fun j => h17 (ix2 k j)
  · exact funext fun j => h20 (ix2 (0 : Fin 1) j)
  · exact funext fun k => funext fun j => h27 (ix2 k j)
  · exact funext fun j => h30 (ix2 (0 : Fin 1) j)

end Cert.KernelIdeal.Payload

end
-- ==== Proof.KernelBlocks.lean ====
/-
  The kernel's result array, at the extended reals.

  Point `t`'s block of the aggregate and of the degree column are rows `5000·t + p` of the two arrays, and its other
  blocks are the whole weights and bias rows; the body's stored entry `(p, q)` is `nodeRow` of those rows; so it is
  entry `(5000·t + p, q)` of `G` of the arrays the region finds, and the result array after the run is that `G`.
  Rewritten in the program's arguments, it is `G` of the reference's own aggregate and degree-column stages.
-/
import proofs.«126388_j11940009083129_1_alg».proof.Proof.KernelReads
import proofs.«126388_j11940009083129_1_alg».proof.Proof.KernelHost
import proofs.«126388_j11940009083129_1_alg».proof.Proof.KernelPayload

noncomputable section

namespace Cert.KernelIdeal.Blocks

open Cert.KernelIdeal Cert.KernelIdeal.Gen Cert.KernelIdeal.Reads Cert.KernelIdeal.Host Cert.KernelIdeal.Payload Cert.GraphConv
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result array as ONE function of the arrays the region finds. -/
def GK (c : Dev nD) : FVec Ideal S50000x256 .f32 :=
  G (aggArr m c) (degArr m c) (mat (wcArr m c)) (fun j => bcArr m c (ix2 (0 : Fin 1) j))
    (mat (w1Arr m c)) (fun j => b1Arr m c (ix2 (0 : Fin 1) j)) (mat (w2Arr m c)) (fun j => b2Arr m c (ix2 (0 : Fin 1) j))

/-- Entry `(p, q)` of the body's result at point `t` is entry `(5000·t + p, q)` of `GK`. -/
theorem block_entry (c : Dev nD) (t : Fin cfg0.N) (p : Fin 5000) (q : Fin 256) (r : Fin 50000) (hr : r.val = t.val * 5000 + p.val) :
    k0_pay1 (F := Ideal) (iblk m c 0 t) (iblk m c 1 t) (iblk m c 2 t) (iblk m c 3 t) (iblk m c 4 t) (iblk m c 5 t) (iblk m c 6 t) (iblk m c 7 t) (ix2 p q) = GK m c (ix2 r q) :=
  entry_of_reads (aggArr m c) (degArr m c) (wcArr m c) (bcArr m c) (w1Arr m c) (b1Arr m c) (w2Arr m c) (b2Arr m c)
    (iblk m c 0 t) (iblk m c 1 t) (iblk m c 2 t) (iblk m c 3 t) (iblk m c 4 t) (iblk m c 5 t) (iblk m c 6 t) (iblk m c 7 t) p q r
    (fun k => agg_block m c t p k r hr) (deg_block m c t p r hr) (wc_block m c t) (bc_block m c t)
    (w1_block m c t) (b1_block m c t) (w2_block m c t) (b2_block m c t)

/-- The kernel's run: the result array ends at `GK`, the arguments unchanged. -/
theorem run : θ_run defs (onTc (τ := τ) (main (F := Ideal))) ⟨m, fun _ => 0, ρ⟩ fun r => ∀ c : Dev nD,
      r.2.mem ((c : Thread nD τ).loc main_v28) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  run_of_entries m ρ (GK m) (fun c t p q r hr => block_entry m c t p q r hr)

/-- `G` of equal arguments. -/
theorem G_congr {A A' : (⟨2, ![50000, 128]⟩ : Shape).Idx → EReal} {D D' : (⟨2, ![50000, 1]⟩ : Shape).Idx → EReal}
    {Wc Wc' : Fin 128 → Fin 256 → EReal} {bc bc' : Fin 256 → EReal}
    {W1 W1' : Fin 256 → Fin 256 → EReal} {b1 b1' : Fin 256 → EReal} {W2 W2' : Fin 256 → Fin 256 → EReal} {b2 b2' : Fin 256 → EReal}
    (hA : A = A') (hD : D = D') (hWc : Wc = Wc') (hbc : bc = bc') (hW1 : W1 = W1') (hb1 : b1 = b1') (hW2 : W2 = W2') (hb2 : b2 = b2') :
    G A D Wc bc W1 b1 W2 b2 = G A' D' Wc' bc' W1' b1' W2' b2' := by
  subst hA hD hWc hbc hW1 hb1 hW2 hb2; rfl

/-- In the program's arguments: `GK` is `G` of the reference's aggregate and degree-column stages, the weights, and the biases. -/
theorem GK_eq (c : Dev nD) :
    GK m c = G (Cert.ReferenceIdeal.Read.val_main_v22 (F := Ideal) (m ((c : Thread nD τ).loc main_arg0)) (m ((c : Thread nD τ).loc main_arg7)) (m ((c : Thread nD τ).loc main_arg8)))
      (Cert.ReferenceIdeal.Read.val_main_v24 (F := Ideal) (m ((c : Thread nD τ).loc main_arg8)))
      (mat (R := 128) (C := 256) (m ((c : Thread nD τ).loc main_arg1))) (vec (N := 256) (m ((c : Thread nD τ).loc main_arg2)))
      (mat (R := 256) (C := 256) (m ((c : Thread nD τ).loc main_arg3))) (vec (N := 256) (m ((c : Thread nD τ).loc main_arg4)))
      (mat (R := 256) (C := 256) (m ((c : Thread nD τ).loc main_arg5))) (vec (N := 256) (m ((c : Thread nD τ).loc main_arg6))) :=
  G_congr (aggArr_eq m c) (degArr_eq m c)
    (congrArg (mat (R := 128) (C := 256)) (wcArr_eq m c)) (funext fun j => bcArr_row m c j)
    (congrArg (mat (R := 256) (C := 256)) (w1Arr_eq m c)) (funext fun j => b1Arr_row m c j)
    (congrArg (mat (R := 256) (C := 256)) (w2Arr_eq m c)) (funext fun j => b2Arr_row m c j)

end Cert.KernelIdeal.Blocks

end
-- ==== Proof.RefValue.lean ====
/-
  The reference, read entry by entry, is the specification.

  After its message-passing prelude the reference holds the aggregate (its stage `%22`) and the column of inverse
  root in-degrees (its stage `%24`). It spreads the column over the 128 feature columns and multiplies, then three
  times takes the product with a weight, adds the bias spread over the rows, and applies SiLU spelt out as
  `y · (1 / (1 + e^(-y)))`. Entry `(r, j)` of a product is the sum over the shared axis of row `r` against column `j`,
  a spread bias contributes its entry `j`, a spread column its entry `r`; so entry `(r, j)` of the result is entry
  `j` of `nodeRow` applied to row `r` of the aggregate and entry `r` of the column: the array `G`.
  The two stages that feed it are never opened: the kernel computes them by the same operations.
-/
import proofs.«126388_j11940009083129_1_alg».proof.Proof.Gen.ReferenceIdeal.Read
import proofs.«126388_j11940009083129_1_alg».proof.Proof.Spec

noncomputable section

namespace Cert.ReferenceIdeal.RefValue

open Cert.ReferenceIdeal Cert.ReferenceIdeal.Gen Cert.ReferenceIdeal.Read Cert.GraphConv Idealize.ShloMosaic Idealize.ShloMosaic.TcCoe Idealize.ShloMosaic.ValueIdx

variable (x0 : FVec Ideal S50000x128 .f32) (x1 : FVec Ideal S128x256 .f32) (x2 : FVec Ideal S256 .f32)
  (x3 : FVec Ideal S256x256 .f32) (x4 : FVec Ideal S256 .f32) (x5 : FVec Ideal S256x256 .f32) (x6 : FVec Ideal S256 .f32)
  (x7 x8 : IVec S800000 32)

/-! ## SiLU as the reference spells it -/

/-- jax's expansion of SiLU on a `[50000, 256]` array — negate, exponential, add one, divide one by it, multiply —
    is SiLU at every entry. -/
theorem silu_host (Y : FVec Ideal S50000x256 .f32) (i : S50000x256.Idx) :
    mulf Y (Host.divf (broadcastInDim S50000x256 ![] bcast_S_S50000x256 (constant (F := Ideal) S_ .f32 0x3F800000#32))
      (addf (broadcastInDim S50000x256 ![] bcast_S_S50000x256 (constant (F := Ideal) S_ .f32 0x3F800000#32)) (Host.exp (Host.negf Y)))) i
      = silu (Y i) := by
  show Y i * Ideal.div (Ideal.ofBits .f32 0x3F800000#32) (Ideal.ofBits .f32 0x3F800000#32 + Ideal.exp (-(Y i))) = _
  rw [one_f32]
  rfl

/-! ## The index maps of the generated stage lemmas, at an index given by its coordinates -/

theorem lidx27 (r : Fin 50000) (j : Fin 256) (k : Fin 128) : lidx_main_v27 (ix2 r j) k = ix2 r k := by
  funext a; match a with | ⟨0, _⟩ => rfl | ⟨1, _⟩ => rfl
theorem ridx27 (r : Fin 50000) (j : Fin 256) (k : Fin 128) : ridx_main_v27 (ix2 r j) k = ix2 k j := by
  funext a; match a with | ⟨0, _⟩ => rfl | ⟨1, _⟩ => rfl
theorem lidx32 (r : Fin 50000) (j : Fin 256) (k : Fin 256) : lidx_main_v32 (ix2 r j) k = ix2 r k := by
  funext a; match a with | ⟨0, _⟩ => rfl | ⟨1, _⟩ => rfl
theorem ridx32 (r : Fin 50000) (j : Fin 256) (k : Fin 256) : ridx_main_v32 (ix2 r j) k = ix2 k j := by
  funext a; match a with | ⟨0, _⟩ => rfl | ⟨1, _⟩ => rfl
theorem lidx37 (r : Fin 50000) (j : Fin 256) (k : Fin 256) : lidx_main_v37 (ix2 r j) k = ix2 r k := by
  funext a; match a with | ⟨0, _⟩ => rfl | ⟨1, _⟩ => rfl
theorem ridx37 (r : Fin 50000) (j : Fin 256) (k : Fin 256) : ridx_main_v37 (ix2 r j) k = ix2 k j := by
  funext a; match a with | ⟨0, _⟩ => rfl | ⟨1, _⟩ => rfl
theorem idx25 (r : Fin 50000) (k : Fin 128) : idx_main_v25 (ix2 r k) = ix2 r (0 : Fin 1) := by
  funext a; match a with | ⟨0, _⟩ => rfl | ⟨1, _⟩ => rfl
theorem idx2829 (r : Fin 50000) (j : Fin 256) : idx_main_v28 (idx_main_v29 (ix2 r j)) = ix1 j := by
  funext a; match a with | ⟨0, _⟩ => rfl
theorem idx3334 (r : Fin 50000) (j : Fin 256) : idx_main_v33 (idx_main_v34 (ix2 r j)) = ix1 j := by
  funext a; match a with | ⟨0, _⟩ => rfl
theorem idx3839 (r : Fin 50000) (j : Fin 256) : idx_main_v38 (idx_main_v39 (ix2 r j)) = ix1 j := by
  funext a; match a with | ⟨0, _⟩ => rfl

/-! ## The stages, layer by layer -/

/-- The scaled aggregate at `(r, k)`: the aggregate there times row `r`'s entry of the degree column. -/
theorem scaled_at (r : Fin 50000) (k : Fin 128) :
    val_main_v26 (F := Ideal) x0 x7 x8 (ix2 r k)
      = val_main_v22 (F := Ideal) x0 x7 x8 (ix2 r k) * val_main_v24 (F := Ideal) x8 (ix2 r (0 : Fin 1)) := by
  rw [val_main_v26_apply, val_main_v25_apply, idx25]
  rfl

/-- The first layer at `(r, j)`. -/
theorem layer0_at (r : Fin 50000) (j : Fin 256) :
    val_main_v31 (F := Ideal) x0 x1 x2 x7 x8 (ix2 r j)
      = layer (fun k => val_main_v26 (F := Ideal) x0 x7 x8 (ix2 r k)) (mat x1) (vec x2) j := by
  have hY : val_main_v30 (F := Ideal) x0 x1 x2 x7 x8 (ix2 r j)
      = ∑ k : Fin 128, val_main_v26 (F := Ideal) x0 x7 x8 (ix2 r k) * x1 (ix2 k j) + x2 (ix1 j) := by
    rw [val_main_v30_apply, val_main_v27_apply, val_main_v29_apply, val_main_v28_apply, idx2829]
    simp only [lidx27, ridx27]
    rfl
  refine (silu_host (val_main_v30 (F := Ideal) x0 x1 x2 x7 x8) (ix2 r j)).trans ?_
  rw [hY]
  rfl

/-- The second layer at `(r, j)`. -/
theorem layer1_at (r : Fin 50000) (j : Fin 256) :
    val_main_v36 (F := Ideal) x0 x1 x2 x3 x4 x7 x8 (ix2 r j)
      = layer (fun k => val_main_v31 (F := Ideal) x0 x1 x2 x7 x8 (ix2 r k)) (mat x3) (vec x4) j := by
  have hY : val_main_v35 (F := Ideal) x0 x1 x2 x3 x4 x7 x8 (ix2 r j)
      = ∑ k : Fin 256, val_main_v31 (F := Ideal) x0 x1 x2 x7 x8 (ix2 r k) * x3 (ix2 k j) + x4 (ix1 j) := by
    rw [val_main_v35_apply, val_main_v32_apply, val_main_v34_apply, val_main_v33_apply, idx3334]
    simp only [lidx32, ridx32]
    rfl
  refine (silu_host (val_main_v35 (F := Ideal) x0 x1 x2 x3 x4 x7 x8) (ix2 r j)).trans ?_
  rw [hY]
  rfl

/-- The third layer at `(r, j)`. -/
theorem layer2_at (r : Fin 50000) (j : Fin 256) :
    val_main_v41 (F := Ideal) x0 x1 x2 x3 x4 x5 x6 x7 x8 (ix2 r j)
      = layer (fun k => val_main_v36 (F := Ideal) x0 x1 x2 x3 x4 x7 x8 (ix2 r k)) (mat x5) (vec x6) j := by
  have hY : val_main_v40 (F := Ideal) x0 x1 x2 x3 x4 x5 x6 x7 x8 (ix2 r j)
      = ∑ k : Fin 256, val_main_v36 (F := Ideal) x0 x1 x2 x3 x4 x7 x8 (ix2 r k) * x5 (ix2 k j) + x6 (ix1 j) := by
    rw [val_main_v40_apply, val_main_v37_apply, val_main_v39_apply, val_main_v38_apply, idx3839]
    simp only [lidx37, ridx37]
    rfl
  refine (silu_host (val_main_v40 (F := Ideal) x0 x1 x2 x3 x4 x5 x6 x7 x8) (ix2 r j)).trans ?_
  rw [hY]
  rfl

/-! ## The result -/

/-- The reference's result array is `G` of its own aggregate and degree-column stages and of the weights and biases. -/
theorem result_eq :
    val_main_v41 (F := Ideal) x0 x1 x2 x3 x4 x5 x6 x7 x8
      = G (val_main_v22 (F := Ideal) x0 x7 x8) (val_main_v24 (F := Ideal) x8) (mat x1) (vec x2) (mat x3) (vec x4) (mat x5) (vec x6) := by
  funext i
  obtain ⟨r, j, rfl⟩ : ∃ (r : Fin 50000) (j : Fin 256), i = ix2 r j := ⟨i 0, i 1, eq_ix2 i⟩
  refine (layer2_at x0 x1 x2 x3 x4 x5 x6 x7 x8 r j).trans ?_
  refine Eq.trans ?_ (G_ix2 _ _ _ _ _ _ _ _ r j).symm
  unfold Gat nodeRow
  refine congrArg (fun x => layer x (mat x5) (vec x6) j) (funext fun k1 => ?_)
  refine (layer1_at x0 x1 x2 x3 x4 x7 x8 r k1).trans ?_
  refine congrArg (fun x => layer x (mat x3) (vec x4) k1) (funext fun k2 => ?_)
  refine (layer0_at x0 x1 x2 x7 x8 r k2).trans ?_
  refine congrArg (fun x => layer x (mat x1) (vec x2) k2) (funext fun k3 => ?_)
  exact scaled_at x0 x7 x8 r k3

end Cert.ReferenceIdeal.RefValue

end
-- ==== Proof.lean ====
/-
  A graph-convolution block: message passing on the host, then a fused three-layer dense stack in one kernel, against
  the same computation written in plain jax.

  Both programs first compute, by the same host operations in the same order, the aggregate
  `A = segment_sum((features · rsqrt(max(deg_out, 1)))[src], dst)` and the column `D = rsqrt(max(deg_in, 1))`.
  The reference then scales `A` by `D` row by row and applies three times "multiply by a weight, add a bias, SiLU".
  The kernel takes `A` and `D` in blocks of 5000 rows, does the scaling inside its body, and applies the same three
  layers, with the matrix products' operands rounded to bf16 (no change over the extended reals) and SiLU's logistic
  as one operation (which over the extended reals is `1 / (1 + e^(-y))`, the reference's spelling).

  Since an output row depends only on the same row of `A` and of `D`, both results are the one array
  `G A D W_conv b_conv W1 b1 W2 b2` (Proof/Spec.lean): the kernel's because every grid point writes the rows of `G` it
  is responsible for and the ten row blocks cover the array (Proof/KernelPayload.lean, Proof/KernelReads.lean,
  Proof/KernelBlocks.lean), the reference's by reading its operations entry by entry (Proof/RefValue.lean); and the
  `A` and `D` the kernel's region finds are the reference's, the preludes being the same operations
  (Proof/KernelHost.lean). No algebraic law is needed beyond this reading, so the inputs' finiteness is not used.
  The three frames are the generated ones; the idealization rewrote nothing, so it has nothing to preserve.
-/
import proofs.«126388_j11940009083129_1_alg».proof.Defs
import proofs.«126388_j11940009083129_1_alg».proof.Proof.Gen.Kernel
import proofs.«126388_j11940009083129_1_alg».proof.Proof.Gen.Kernel.Skeleton
import proofs.«126388_j11940009083129_1_alg».proof.Proof.Gen.Kernel.Launch
import proofs.«126388_j11940009083129_1_alg».proof.Proof.Gen.Kernel.Points
import proofs.«126388_j11940009083129_1_alg».proof.Proof.Gen.Kernel.Frame
import proofs.«126388_j11940009083129_1_alg».proof.Proof.Gen.KernelIdeal
import proofs.«126388_j11940009083129_1_alg».proof.Proof.Gen.KernelIdeal.Skeleton
import proofs.«126388_j11940009083129_1_alg».proof.Proof.Gen.KernelIdeal.Launch
import proofs.«126388_j11940009083129_1_alg».proof.Proof.Gen.KernelIdeal.Points
import proofs.«126388_j11940009083129_1_alg».proof.Proof.Gen.KernelIdeal.Frame
import proofs.«126388_j11940009083129_1_alg».proof.Proof.Gen.ReferenceIdeal
import proofs.«126388_j11940009083129_1_alg».proof.Proof.Gen.Pre_finite_inputs
import proofs.«126388_j11940009083129_1_alg».proof.Proof.Gen.KernelIdeal.Value
import proofs.«126388_j11940009083129_1_alg».proof.Proof.Gen.ReferenceIdeal.Run
import proofs.«126388_j11940009083129_1_alg».proof.Proof.Gen.ReferenceIdeal.Read
import proofs.«126388_j11940009083129_1_alg».proof.Proof.KernelBlocks
import proofs.«126388_j11940009083129_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array `G` of the shared aggregate and
    degree column: the kernel's run names it (`GK`), the reference's result term is it entry by entry, and `GK` written
    in the arguments is the same expression. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v41_eq m' c).trans ?_
  refine (Cert.ReferenceIdeal.RefValue.result_eq _ _ _ _ _ _ _ _ _).trans ?_
  obtain ⟨h0, h1, h2, h3, h4, h5, h6, h7, h8⟩ := hagree c
  rw [h0, h1, h2, h3, h4, h5, h6, h7, h8]
  exact (Cert.KernelIdeal.Blocks.GK_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
